-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S4x4096x1024_S16384x1024 : S4x4096x1024.ShapeCasts S16384x1024
  shapeCasts_S1024x1024_S1024x1024 : S1024x1024.ShapeCasts S1024x1024
  bitsLt_bf16_f32 : FTy.bits .bf16 < FTy.bits .f32
  shapeCasts_S16384x1024_S4x4096x1024 : S16384x1024.ShapeCasts S4x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .f32 = 32 ∨ (Rect.block (s := S16384x1024) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg2) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S4x4096x1024_S1024x1024_S4x4096x1024_2_1_01_0_n_n_wf : DotDims.WF S4x4096x1024 S1024x1024 S4x4096x1024 [2] [1] [0, 1] [0] [] []
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Bodies.lean ====
/-
  The two kernel bodies' arithmetic read at one entry, on the extended reals.  The first body transposes `B`, multiplies
  it by `A`, transposes `C` and multiplies again: entry (l, o) of what it stores is
  `∑ k, (∑ h, B[h, l] · A[h, k]) · C[o, k]`.  The second body rounds its two blocks to bf16 (the identity on the extended
  reals) and multiplies them: entry (p, q) is `∑ l, X[p, l] · W[l, q]`.  Each product is into a zero accumulator, so it is
  the plain sum over the contracted coordinate.
-/
import proofs.«153468_j26173530701943_1_alg».proof.Proof.Gen.KernelIdeal.Skeleton
import proofs.«153468_j26173530701943_1_alg».proof.Proof.LibMatmulPlain
import Idealize.ShloMosaic.Lib.Pipeline.Value
import Idealize.ShloMosaic.Lib.ValueIdx

noncomputable section

namespace Cert.KernelIdeal.Bodies

open Idealize.ShloMosaic Idealize.ShloMosaic.ValueIdx Cert.KernelIdeal Cert.KernelIdeal.Gen

/-- The printed dimension numbers: rows by contraction times contraction by columns, no batch axis. -/
theorem plain : Cert.Gcn.IsPlain (M := 1024) (K := 1024) (N := 1024) dot_S1024x1024_S1024x1024_S1024x1024_1_0_0_1_n_n :=
  ⟨rfl, rfl, rfl, rfl, rfl, rfl⟩

/-- The transpose of a square array read at (a, b) is the array at (b, a). -/
theorem transpose_at (v : FVec Ideal S1024x1024 .f32) (a b : Fin 1024) :
    transpose S1024x1024 [1, 0] v Facts₀.transposes_S1024x1024_p1_0_S1024x1024 (ix2 a b) = v (ix2 b a) :=
  transpose_apply [1, 0] v _ (ix2 a b) (ix2 b a) fun d => by
    match d with
    | ⟨0, _⟩ => rfl
    | ⟨1, _⟩ => rfl

/-- The fused weight at (l, o). -/
theorem fused_at (xB xA xC : FVec Ideal S1024x1024 .f32) (l o : Fin 1024) :
    (k0_pay1 (F := Ideal) xB xA xC) (ix2 l o)
      = ∑ k : Fin 1024, (∑ h : Fin 1024, xB (ix2 h l) * xA (ix2 h k)) * xC (ix2 o k) := by
  unfold k0_pay1
  refine (Cert.Gcn.matmul_plain_apply _ plain none _ _ l o).trans ?_
  refine Finset.sum_congr rfl fun k _ => ?_
  rw [transpose_at xC k o]
  refine congrArg (· * xC (ix2 o k)) ?_
  refine (Cert.Gcn.matmul_plain_apply _ plain none _ _ l k).trans ?_
  refine Finset.sum_congr rfl fun h _ => ?_
  rw [transpose_at xB l h]

/-- The block product at (p, q). -/
theorem product_at (x0 x1 : FVec Ideal S1024x1024 .f32) (p q : Fin 1024) :
    (k1_pay1 (F := Ideal) x0 x1) (ix2 p q) = ∑ l : Fin 1024, x0 (ix2 p l) * x1 (ix2 l q) := by
  unfold k1_pay1
  refine (Cert.Gcn.matmul_plain_apply _ plain none _ _ p q).trans ?_
  refine Finset.sum_congr rfl fun l _ => ?_
  simp only [truncf_apply, shapeCast_self]

end Cert.KernelIdeal.Bodies

end
-- ==== Proof.KernelArrays.lean ====
/-
  What the kernel's program leaves in its result array, on the extended reals, read off the frame's boundary contents.
  The first launch has one grid point whose blocks are the whole arrays: its output array ends holding the fused weight
  `W[l, o] = ∑ k, (∑ h, B[h, l] · A[h, k]) · C[o, k]`.  The host then lays the activations out as 16384 rows.  The second
  launch walks 16 row blocks of 1024 rows; point `t` writes rows `1024 t … 1024 t + 1023` of `X · W`, and the sixteen blocks
  tile the output, so it ends holding `Y[r, o] = ∑ l, X[r, l] · W[l, o]`.  The host lays `Y` out again as
  [4, 4096, 1024]: entry (b, s, o) of the result is row `4096 b + s` of `Y`.
-/
import proofs.«153468_j26173530701943_1_alg».proof.Proof.Gen.KernelIdeal.Frame
import proofs.«153468_j26173530701943_1_alg».proof.Proof.Bodies
import Idealize.ShloMosaic.Lib.Pipeline.Value
import Idealize.ShloMosaic.Lib.StableHlo.Run
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

theorem hz : (![0, 0] : Fin 2 → Nat) = fun _ => 0 := funext fun a => by fin_cases a <;> rfl

section Regions
variable (V : (c : Dev nD) → (b : Ref sig .tc) → Buf (Elt Ideal) ((c : Thread nD τ).loc b))

/-! ## The first launch: the fused weight -/

/-- The one point's block indices are all zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input block of the first launch is its whole array. -/
theorem iblk0_0_eq (c : Dev nD) (t : Fin cfg0.N) : (iblk0 V c 0 t : Vec Ideal S1024x1024 .f32) = V c main_arg2 := by
  obtain ⟨e0, e1, -⟩ := idx0 t
  funext x
  unfold iblk0
  rw [View.read_apply]
  show V c main_arg2 _ = V c main_arg2 x
  congr 1
  funext a; apply Fin.ext
  match a with
  | ⟨0, _⟩ => show win0_0.index t (0 : Fin 2) * 1024 + 1 * (x 0).val = (x 0).val; rw [e0]; omega
  | ⟨1, _⟩ => show win0_0.index t (1 : Fin 2) * 1024 + 1 * (x 1).val = (x 1).val; rw [e1]; omega
theorem iblk0_1_eq (c : Dev nD) (t : Fin cfg0.N) : (iblk0 V c 1 t : Vec Ideal S1024x1024 .f32) = V c main_arg1 := by
  obtain ⟨-, -, e0, e1, -⟩ := idx0 t
  funext x
  unfold iblk0
  rw [View.read_apply]
  show V c main_arg1 _ = V c main_arg1 x
  congr 1
  funext a; apply Fin.ext
  match a with
  | ⟨0, _⟩ => show win0_1.index t (0 : Fin 2) * 1024 + 1 * (x 0).val = (x 0).val; rw [e0]; omega
  | ⟨1, _⟩ => show win0_1.index t (1 : Fin 2) * 1024 + 1 * (x 1).val = (x 1).val; rw [e1]; omega
theorem iblk0_2_eq (c : Dev nD) (t : Fin cfg0.N) : (iblk0 V c 2 t : Vec Ideal S1024x1024 .f32) = V c main_arg3 := by
  obtain ⟨-, -, -, -, e0, e1, -⟩ := idx0 t
  funext x
  unfold iblk0
  rw [View.read_apply]
  show V c main_arg3 _ = V c main_arg3 x
  congr 1
  funext a; apply Fin.ext
  match a with
  | ⟨0, _⟩ => show win0_2.index t (0 : Fin 2) * 1024 + 1 * (x 0).val = (x 0).val; rw [e0]; omega
  | ⟨1, _⟩ => show win0_2.index t (1 : Fin 2) * 1024 + 1 * (x 1).val = (x 1).val; rw [e1]; omega

/-- The fused weight as the first body's arithmetic of the three whole weight arrays. -/
abbrev fused (c : Dev nD) : Buf (Elt Ideal) ((c : Thread nD τ).loc main_v0) :=
  k0_pay1 (F := Ideal) (V c main_arg2) (V c main_arg1) (V c main_arg3)

/-- The one point writes back the fused weight, read through its block. -/
theorem flushed0 (c : Dev nD) (t : Fin cfg0.N) (hf : (cfg0.win 3).flush t = true) :
    (dat0 V c).flushed 3 t = ((cfg0.win 3).blk t).view.read (Elt Ideal) (fused V c) := by
  obtain ⟨-, -, -, -, -, -, e0, e1⟩ := idx0 t
  show (cfg0.win 3).cut (grid0.coords t) ((dat0 V c).after 3 t) = _
  rw [after0_3]
  unfold out0_3
  rw [View.canon_unit_zero hz]
  simp only [View.ld_unit_zero (S := S1024x1024) hz]
  rw [iblk0_0_eq, iblk0_1_eq, iblk0_2_eq]
  funext x
  rw [View.read_apply]
  show fused V c x = fused V c _
  congr 1
  funext a; apply Fin.ext
  match a with
  | ⟨0, _⟩ => show (x 0).val = win0_3.index t (0 : Fin 2) * 1024 + 1 * (x 0).val; rw [e0]; omega
  | ⟨1, _⟩ => show (x 1).val = win0_3.index t (1 : Fin 2) * 1024 + 1 * (x 1).val; rw [e1]; omega

/-- The first launch's output array ends holding the fused weight. -/
theorem final0 (c : Dev nD) : (dat0 V c).arrAt 3 cfg0.N = fused V c :=
  (dat0 V c).arrAt_eq_of_cover 3 (fused V c) (flushed0 V c) fun i =>
    ⟨t0_0, flush0_3 t0_0, by
      obtain ⟨-, -, -, -, -, -, e0, e1⟩ := idx0 t0_0
      show i ∈ ((View.whole main_v0).slice (win0_3.rect t0_0)).set
      rw [View.set_slice_whole, Rect.mem_set_unit]
      intro a
      have h0 : (i 0 : Nat) < 1024 := (i 0).isLt
      have h1 : (i 1 : Nat) < 1024 := (i 1).isLt
      match a with
      | ⟨0, _⟩ => show win0_3.index t0_0 (0 : Fin 2) * 1024 ≤ (i 0 : Nat) ∧ (i 0 : Nat) < win0_3.index t0_0 (0 : Fin 2) * 1024 + 1024; rw [e0]; omega
      | ⟨1, _⟩ => show win0_3.index t0_0 (1 : Fin 2) * 1024 ≤ (i 1 : Nat) ∧ (i 1 : Nat) < win0_3.index t0_0 (1 : Fin 2) * 1024 + 1024; rw [e1]; omega⟩

/-! ## The second launch: the rows of `X · W` -/

/-- Point `t` reads row block `t` of the activations and the whole weight, and writes row block `t`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of the activations' rows with the weight, entry by entry. -/
def rowsTimes (X : FVec Ideal S16384x1024 .f32) (Wm : FVec Ideal S1024x1024 .f32) : FVec Ideal S16384x1024 .f32 :=
  fun i => ∑ l : Fin 1024, X (ix2 (⟨(i 0).val, (i 0).isLt⟩ : Fin 16384) l) * Wm (ix2 l (⟨(i 1).val, (i 1).isLt⟩ : Fin 1024))

theorem rowsTimes_at (X : FVec Ideal S16384x1024 .f32) (Wm : FVec Ideal S1024x1024 .f32) (r : Fin 16384) (o : Fin 1024) :
    rowsTimes X Wm (ix2 r o) = ∑ l : Fin 1024, X (ix2 r l) * Wm (ix2 l o) := rfl

/-- Entry (p, l) of the activations' block at point `t` is entry (1024 t + p, l) of the array. -/
theorem iblk1_0_at (c : Dev nD) (t : Fin cfg1.N) (p l : Fin 1024) (r : Fin 16384) (hr : r.val = t.val * 1024 + p.val) :
    (iblk1 V c 0 t : Vec Ideal S1024x1024 .f32) (ix2 p l) = (V c main_v1 : FVec Ideal S16384x1024 .f32) (ix2 r l) := by
  obtain ⟨e0, e1, -⟩ := idx1 t
  unfold iblk1
  rw [View.read_apply]
  show V c main_v1 _ = V c main_v1 _
  congr 1
  funext a; apply Fin.ext
  match a with
  | ⟨0, _⟩ => show win1_0.index t (0 : Fin 2) * 1024 + 1 * p.val = r.val; rw [e0, hr]; omega
  | ⟨1, _⟩ => show win1_0.index t (1 : Fin 2) * 1024 + 1 * l.val = l.val; rw [e1]; omega

/-- The weight's block at every point is the whole weight. -/
theorem iblk1_1_eq (c : Dev nD) (t : Fin cfg1.N) : (iblk1 V c 1 t : Vec Ideal S1024x1024 .f32) = V c main_v0 := by
  obtain ⟨-, -, e0, e1, -⟩ := idx1 t
  funext x
  unfold iblk1
  rw [View.read_apply]
  show V c main_v0 _ = V c main_v0 x
  congr 1
  funext a; apply Fin.ext
  match a with
  | ⟨0, _⟩ => show win1_1.index t (0 : Fin 2) * 1024 + 1 * (x 0).val = (x 0).val; rw [e0]; omega
  | ⟨1, _⟩ => show win1_1.index t (1 : Fin 2) * 1024 + 1 * (x 1).val = (x 1).val; rw [e1]; omega

/-- Point `t` writes back row block `t` of the product. -/
theorem flushed1 (c : Dev nD) (t : Fin cfg1.N) (hf : (cfg1.win 2).flush t = true) :
    (dat1 V c).flushed 2 t = ((cfg1.win 2).blk t).view.read (Elt Ideal) (rowsTimes (V c main_v1) (V c main_v0)) := by
  obtain ⟨-, -, -, -, e0, e1⟩ := idx1 t
  have hN : cfg1.N = 16 := N_1
  have ht : t.val < 16 := hN ▸ t.isLt
  show (cfg1.win 2).cut (grid1.coords t) ((dat1 V c).after 2 t) = _
  rw [after1_2]
  unfold out1_2
  rw [View.canon_unit_zero hz]
  simp only [View.ld_unit_zero (S := S1024x1024) hz]
  rw [iblk1_1_eq]
  funext x
  obtain ⟨p, q, rfl⟩ : ∃ (p : Fin 1024) (q : Fin 1024), x = ix2 p q := ⟨x 0, x 1, eq_ix2 x⟩
  rw [View.read_apply]
  have hemb : ((cfg1.win 2).blk t).view.emb (ix2 p q) = ix2 (⟨t.val * 1024 + p.val, by have := p.isLt; omega⟩ : Fin 16384) q := by
    funext a; apply Fin.ext
    match a with
    | ⟨0, _⟩ => show win1_2.index t (0 : Fin 2) * 1024 + 1 * p.val = t.val * 1024 + p.val; rw [e0]; omega
    | ⟨1, _⟩ => show win1_2.index t (1 : Fin 2) * 1024 + 1 * q.val = q.val; rw [e1]; omega
  refine (Cert.KernelIdeal.Bodies.product_at _ _ p q).trans ?_
  refine Eq.trans ?_ (congrArg (rowsTimes (V c main_v1) (V c main_v0)) hemb).symm
  rw [rowsTimes_at]
  refine Finset.sum_congr rfl fun l _ => ?_
  rw [iblk1_0_at V c t p l ⟨t.val * 1024 + p.val, by have := p.isLt; omega⟩ rfl]

/-- The sixteen row blocks tile the output, so it ends holding the product. -/
theorem final1 (c : Dev nD) : (dat1 V c).arrAt 2 cfg1.N = rowsTimes (V c main_v1) (V c main_v0) :=
  (dat1 V c).arrAt_eq_of_cover 2 _ (flushed1 V c) fun i => by
    have hN : cfg1.N = 16 := N_1
    have h0 : (i 0 : Nat) < 16384 := (i 0).isLt
    have h1 : (i 1 : Nat) < 1024 := (i 1).isLt
    let t : Fin cfg1.N := ⟨(i 0).val / 1024, by rw [hN]; omega⟩
    obtain ⟨-, -, -, -, e0, e1⟩ := idx1 t
    refine ⟨t, flush1_2 t, ?_⟩
    show i ∈ ((View.whole main_v2).slice (win1_2.rect t)).set
    rw [View.set_slice_whole, Rect.mem_set_unit]
    intro a
    have htv : t.val = (i 0).val / 1024 := rfl
    match a with
    | ⟨0, _⟩ => show win1_2.index t (0 : Fin 2) * 1024 ≤ (i 0 : Nat) ∧ (i 0 : Nat) < win1_2.index t (0 : Fin 2) * 1024 + 1024; rw [e0, htv]; omega
    | ⟨1, _⟩ => show win1_2.index t (1 : Fin 2) * 1024 ≤ (i 1 : Nat) ∧ (i 1 : Nat) < win1_2.index t (1 : Fin 2) * 1024 + 1024; rw [e1]; omega

end Regions

end Cert.KernelIdeal.Arrays

end
-- ==== Proof.KernelResult.lean ====
/-
  The kernel's result array as a function of the four argument arrays, entry by entry: following the buffer contents
  from the launch through the first launch's exit, the host's re-layout of the activations, the second launch's exit and
  the host's re-layout of the product.  Entry (b, s, o) is
  `∑ l, x[b, s, l] · (∑ k, (∑ h, B[h, l] · A[h, k]) · C[o, k])`.
-/
import proofs.«153468_j26173530701943_1_alg».proof.Proof.KernelArrays

set_option maxRecDepth 16384

noncomputable section

namespace Cert.KernelIdeal.Arrays

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The second launch finds the fused weight of the launch arrays in its weight operand: the host's re-layout between
    the launches does not write it. -/
theorem entry_weight (c : Dev nD) : V2 m ρ c main_v0 = fused (V0 m ρ) c := by
  show StableHlo.after hostOps1 (W1 m ρ c) (Proc.devRef .tc main_v0) = _
  after_results
  exact (W1_arr m ρ c 3).trans (final0 (V0 m ρ) c)

/-- It finds the activations laid out as 16384 rows. -/
theorem entry_rows (c : Dev nD) :
    V2 m ρ c main_v1 = shapeCast S16384x1024 (m ((c : Thread nD τ).loc main_arg0)) Facts₀.shapeCasts_S4x4096x1024_S16384x1024 := by
  show StableHlo.after hostOps1 (W1 m ρ c) (Proc.devRef .tc main_v1) = _
  after_results
  rw [W1_of_ne m ρ c main_arg0 (by decide)]
  rfl

/-- The result array is the product's rows laid out as [4, 4096, 1024]. -/
theorem result_eq (c : Dev nD) :
    W4 m ρ c (Proc.devRef .tc main_v3)
      = shapeCast S4x4096x1024 (rowsTimes (V2 m ρ c main_v1) (V2 m ρ c main_v0)) Facts₀.shapeCasts_S16384x1024_S4x4096x1024 := by
  have h : W3 m ρ c (Proc.devRef .tc main_v2) = rowsTimes (V2 m ρ c main_v1) (V2 m ρ c main_v0) :=
    (W3_arr m ρ c 2).trans (final1 (V2 m ρ) c)
  show StableHlo.after hostOps2 (W3 m ρ c) (Proc.devRef .tc main_v3) = _
  after_results
  rw [h]
  rfl

/-- Row `4096 b + s` of the 16384-row layout is row (b, s) of the activations. -/
theorem rows_at (x : FVec Ideal S4x4096x1024 .f32) (b : Fin 4) (s : Fin 4096) (l : Fin 1024) (r : Fin 16384)
    (hr : r.val = b.val * 4096 + s.val) :
    shapeCast S16384x1024 x Facts₀.shapeCasts_S4x4096x1024_S16384x1024 (ix2 r l) = x (ix3 b s l) :=
  shapeCast_apply x _ (ix2 r l) (ix3 b s l) (by
    rw [Shape.rowMajor_val_two, Shape.rowMajor_val_three]
    show (b.val * 4096 + s.val) * 1024 + l.val = r.val * 1024 + l.val
    rw [hr])

/-- Entry (b, s, o) of the [4, 4096, 1024] layout is entry (4096 b + s, o) of the 16384-row array. -/
theorem unrows_at (y : FVec Ideal S16384x1024 .f32) (b : Fin 4) (s : Fin 4096) (o : Fin 1024) (r : Fin 16384)
    (hr : r.val = b.val * 4096 + s.val) :
    shapeCast S4x4096x1024 y Facts₀.shapeCasts_S16384x1024_S4x4096x1024 (ix3 b s o) = y (ix2 r o) :=
  shapeCast_apply y _ (ix3 b s o) (ix2 r o) (by
    rw [Shape.rowMajor_val_two, Shape.rowMajor_val_three]
    show r.val * 1024 + o.val = (b.val * 4096 + s.val) * 1024 + o.val
    rw [hr])

/-- The four argument arrays at launch and the result array after the run, each under its literal type. -/
abbrev actsAt (c : Dev nD) : FVec Ideal S4x4096x1024 .f32 := m ((c : Thread nD τ).loc main_arg0)
abbrev matA (c : Dev nD) : FVec Ideal S1024x1024 .f32 := m ((c : Thread nD τ).loc main_arg1)
abbrev matB (c : Dev nD) : FVec Ideal S1024x1024 .f32 := m ((c : Thread nD τ).loc main_arg2)
abbrev matC (c : Dev nD) : FVec Ideal S1024x1024 .f32 := m ((c : Thread nD τ).loc main_arg3)
abbrev resultArr (c : Dev nD) : FVec Ideal S4x4096x1024 .f32 := W4 m ρ c (Proc.devRef .tc main_v3)

/-- THE KERNEL'S RESULT at (b, s, o): the activations' row (b, s) times column `o` of the fused weight. -/
theorem result_at (c : Dev nD) (b : Fin 4) (s : Fin 4096) (o : Fin 1024) :
    resultArr m ρ c (ix3 b s o)
      = ∑ l : Fin 1024, actsAt m c (ix3 b s l)
          * (∑ k : Fin 1024, (∑ h : Fin 1024, matB m c (ix2 h l) * matA m c (ix2 h k)) * matC m c (ix2 o k)) := by
  have hb : b.val < 4 := b.isLt
  have hs : s.val < 4096 := s.isLt
  have e : resultArr m ρ c = shapeCast S4x4096x1024 (rowsTimes (V2 m ρ c main_v1) (V2 m ρ c main_v0))
      Facts₀.shapeCasts_S16384x1024_S4x4096x1024 := result_eq m ρ c
  rw [e, unrows_at _ b s o ⟨b.val * 4096 + s.val, by omega⟩ rfl, rowsTimes_at]
  refine Finset.sum_congr rfl fun l _ => ?_
  rw [entry_rows, entry_weight, rows_at _ b s l ⟨b.val * 4096 + s.val, by omega⟩ rfl]
  exact congrArg _ (Cert.KernelIdeal.Bodies.fused_at _ _ _ l o)

end Cert.KernelIdeal.Arrays

end
-- ==== Proof.RefChain.lean ====
/-
  The reference's result, entry by entry, on the extended reals.  It multiplies the activations through `Bᵀ`, then `A`, then
  `Cᵀ`, each product contracting the last axis of the running [4, 4096, 1024] array: entry (b, s, o) is
  `∑ k, (∑ h, (∑ i, x[b, s, i] · B[h, i]) · A[h, k]) · C[o, k]`.
-/
import proofs.«153468_j26173530701943_1_alg».proof.Proof.Gen.ReferenceIdeal.Read
import Idealize.ShloMosaic.Lib.ValueIdx

noncomputable section

namespace Cert.ReferenceIdeal.Chain

open Idealize.ShloMosaic Idealize.ShloMosaic.ValueIdx Cert.ReferenceIdeal Cert.ReferenceIdeal.Read

/-! The operand indices of the three products at an entry given by coordinates. -/

theorem l0 (b : Fin 4) (s : Fin 4096) (h i : Fin 1024) : lidx_main_v0 (ix3 b s h) i = ix3 b s i :=
  funext fun a => Fin.ext (by match a with | ⟨0, _⟩ => rfl | ⟨1, _⟩ => rfl | ⟨2, _⟩ => rfl)
theorem r0 (b : Fin 4) (s : Fin 4096) (h i : Fin 1024) : ridx_main_v0 (ix3 b s h) i = ix2 h i :=
  funext fun a => Fin.ext (by match a with | ⟨0, _⟩ => rfl | ⟨1, _⟩ => rfl)
theorem l1 (b : Fin 4) (s : Fin 4096) (k h : Fin 1024) : lidx_main_v1 (ix3 b s k) h = ix3 b s h :=
  funext fun a => Fin.ext (by match a with | ⟨0, _⟩ => rfl | ⟨1, _⟩ => rfl | ⟨2, _⟩ => rfl)
theorem r1 (b : Fin 4) (s : Fin 4096) (k h : Fin 1024) : ridx_main_v1 (ix3 b s k) h = ix2 h k :=
  funext fun a => Fin.ext (by match a with | ⟨0, _⟩ => rfl | ⟨1, _⟩ => rfl)
theorem l2 (b : Fin 4) (s : Fin 4096) (o k : Fin 1024) : lidx_main_v2 (ix3 b s o) k = ix3 b s k :=
  funext fun a => Fin.ext (by match a with | ⟨0, _⟩ => rfl | ⟨1, _⟩ => rfl | ⟨2, _⟩ => rfl)
theorem r2 (b : Fin 4) (s : Fin 4096) (o k : Fin 1024) : ridx_main_v2 (ix3 b s o) k = ix2 o k :=
  funext fun a => Fin.ext (by match a with | ⟨0, _⟩ => rfl | ⟨1, _⟩ => rfl)

/-- THE REFERENCE'S RESULT at (b, s, o). -/
theorem result_at (x : FVec Ideal S4x4096x1024 .f32) (A B C : FVec Ideal S1024x1024 .f32) (b : Fin 4) (s : Fin 4096) (o : Fin 1024) :
    val_main_v2 (F := Ideal) x A B C (ix3 b s o)
      = ∑ k : Fin 1024, (∑ h : Fin 1024, (∑ i : Fin 1024, x (ix3 b s i) * B (ix2 h i)) * A (ix2 h k)) * C (ix2 o k) := by
  rw [val_main_v2_apply]
  refine Finset.sum_congr rfl fun k _ => ?_
  rw [l2, r2, val_main_v1_apply]
  refine congrArg (· * C (ix2 o k)) (Finset.sum_congr rfl fun h _ => ?_)
  rw [l1, r1, val_main_v0_apply]
  refine congrArg (· * A (ix2 h k)) (Finset.sum_congr rfl fun i _ => ?_)
  rw [l0, r0]

end Cert.ReferenceIdeal.Chain

end
-- ==== Proof.ChainLaw.lean ====
/-
  The algebraic law that joins the two programs.  Both compute, for one row `x` of the activations and one output
  column, a triple sum of products `x_i · B_{h i} · A_{h k} · C_k` over `i`, `h`, `k`; the kernel first contracts `B`, `A`
  and `C` into one fused weight and multiplies the row by it last, the reference multiplies the row through `B`, then
  `A`, then `C`.  Over the reals the two groupings agree by distributivity and by exchanging the order of finite sums.
  On the extended reals distributivity fails at the infinities, so the law is stated for entries that are real numbers.
-/
import Mathlib.Data.EReal.Operations
import Mathlib.Algebra.BigOperators.Ring.Finset
import Mathlib.Algebra.BigOperators.Fin
import Mathlib.Tactic.Ring

namespace Cert.FusedChain

open Finset

/-- The coercion of the reals into the extended reals carries a finite sum to the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the row times the fused weight is the row carried through the three factors one after the other. -/
theorem real_law {I H K : Type*} [Fintype I] [Fintype H] [Fintype K]
    (x : I → ℝ) (B : H → I → ℝ) (A : H → K → ℝ) (C : K → ℝ) :
    ∑ l, x l * (∑ k, (∑ h, B h l * A h k) * C k) = ∑ k, (∑ h, (∑ i, x i * B h i) * A h k) * C k := by
  simp only [Finset.mul_sum, Finset.sum_mul]
  rw [Finset.sum_comm]
  refine Finset.sum_congr rfl fun k _ => ?_
  rw [Finset.sum_comm]
  refine Finset.sum_congr rfl fun h _ => Finset.sum_congr rfl fun i _ => ?_
  ring

/-- The same law on the extended reals, for entries that are all real numbers. -/
theorem ereal_law {I H K : Type*} [Fintype I] [Fintype H] [Fintype K]
    (x : I → EReal) (B : H → I → EReal) (A : H → K → EReal) (C : K → EReal)
    (hx : ∀ i, ∃ r : ℝ, x i = r) (hB : ∀ h i, ∃ r : ℝ, B h i = r) (hA : ∀ h k, ∃ r : ℝ, A h k = r) (hC : ∀ k, ∃ r : ℝ, C k = r) :
    ∑ l, x l * (∑ k, (∑ h, B h l * A h k) * C k) = ∑ k, (∑ h, (∑ i, x i * B h i) * A h k) * C k := by
  choose x' hx' using hx
  choose B' hB' using hB
  choose A' hA' using hA
  choose C' hC' using hC
  simp only [hx', hB', hA', hC', ← EReal.coe_mul, ← coe_sum]
  exact congrArg _ (real_law x' B' A' C')

end Cert.FusedChain
-- ==== Proof.Finite.lean ====
/-
  What the precondition says: each of the four argument arrays passes `|a| < +∞` at every entry, the four tests
  conjoined.  On the extended reals an entry whose absolute value `max a (-a)` lies strictly below `⊤` is neither
  infinity, hence a real number.
-/
import proofs.«153468_j26173530701943_1_alg».proof.Pre_finite_inputs
import proofs.«153468_j26173530701943_1_alg».proof.Proof.Gen.Pre_finite_inputs
import Idealize.ShloMosaic.Lib.ReduceAll
import Idealize.ShloMosaic.PureOps.Ideal.Laws

noncomputable section

namespace Cert.FiniteInputs

open Idealize.ShloMosaic Cert.Pre_finite_inputs

instance : Subsingleton S_.Idx := ⟨fun a b => funext fun d => d.elim0⟩

/-- The pattern of the positive infinity denotes `⊤`. -/
theorem ofBits_inf : Ideal.ofBits .f32 0x7F800000#32 = (⊤ : EReal) := by simp [Ideal.ofBits, Ideal.ieee]

/-- An extended real whose absolute value compares strictly below `+∞` is a real number. -/
theorem real_of_abs_lt (a : EReal)
    (h : FloatOps.cmpf (F := Ideal) (φ := .f32) .olt (FloatOps.hostAbsf (F := Ideal) (φ := .f32) a) (Ideal.ofBits .f32 0x7F800000#32) = 1#1) :
    ∃ r : ℝ, a = r := by
  rw [ofBits_inf] at h
  induction a using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

/-- One array's test, read back: if the conjunction over all entries of `|a| < +∞` is one, every entry is real. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu (fun d => d.elim0) = 1#1) :
    ∀ i, ∃ r : ℝ, a i = r := by
  intro i
  have h := Host.reduce_andi_all _ _ hr hu _ e i
  exact real_of_abs_lt (a i) h

/-- THE PRECONDITION, READ: when the printed test of the four arrays is one, every entry of each array is a real number. -/
theorem reals_of_pre (a0 : FVec Ideal S4x4096x1024 .f32) (a1 a2 a3 : FVec Ideal S1024x1024 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h (fun d => d.elim0)
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3⟩

end Cert.FiniteInputs

end
-- ==== Proof.lean ====
/-
  The kernel computes `y = x · W` with the fused weight `W = (Bᵀ · A) · Cᵀ` built once by a first launch and applied to 16
  row blocks of the activations by a second; the reference computes `y = ((x · Bᵀ) · A) · Cᵀ` with three host products.
  On the extended reals every rounding is the identity and each product into a zero accumulator is the plain sum over
  the contracted coordinate, so entry (b, s, o) of the kernel's result is
  `∑ l, x[b,s,l] · (∑ k, (∑ h, B[h,l] · A[h,k]) · C[o,k])` and of the reference's
  `∑ k, (∑ h, (∑ i, x[b,s,i] · B[h,i]) · A[h,k]) · C[o,k]`.  The two groupings agree by distributivity and by exchanging
  finite sums, laws that hold when every entry is a real number: that is what the precondition gives, and where it is
  used.  The three frames are the generated ones (the reference's from its run), and no rewrite was applied by the
  ideal pass, so the preservation claim is empty.
-/
import proofs.«153468_j26173530701943_1_alg».proof.Defs
import proofs.«153468_j26173530701943_1_alg».proof.Proof.Gen.Kernel
import proofs.«153468_j26173530701943_1_alg».proof.Proof.Gen.Kernel.Skeleton
import proofs.«153468_j26173530701943_1_alg».proof.Proof.Gen.Kernel.Launch
import proofs.«153468_j26173530701943_1_alg».proof.Proof.Gen.Kernel.Points
import proofs.«153468_j26173530701943_1_alg».proof.Proof.Gen.Kernel.Frame
import proofs.«153468_j26173530701943_1_alg».proof.Proof.Gen.KernelIdeal
import proofs.«153468_j26173530701943_1_alg».proof.Proof.Gen.KernelIdeal.Skeleton
import proofs.«153468_j26173530701943_1_alg».proof.Proof.Gen.KernelIdeal.Launch
import proofs.«153468_j26173530701943_1_alg».proof.Proof.Gen.KernelIdeal.Points
import proofs.«153468_j26173530701943_1_alg».proof.Proof.Gen.KernelIdeal.Frame
import proofs.«153468_j26173530701943_1_alg».proof.Proof.Gen.ReferenceIdeal
import proofs.«153468_j26173530701943_1_alg».proof.Proof.Gen.ReferenceIdeal.Run
import proofs.«153468_j26173530701943_1_alg».proof.Proof.Gen.ReferenceIdeal.Read
import proofs.«153468_j26173530701943_1_alg».proof.Proof.Gen.Pre_finite_inputs
import proofs.«153468_j26173530701943_1_alg».proof.Proof.KernelRun
import proofs.«153468_j26173530701943_1_alg».proof.Proof.KernelResult
import proofs.«153468_j26173530701943_1_alg».proof.Proof.RefChain
import proofs.«153468_j26173530701943_1_alg».proof.Proof.ChainLaw
import proofs.«153468_j26173530701943_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs end with equal result arrays: entry by entry, the row of the activations times the fused weight
    is the row carried through `Bᵀ`, `A` and `Cᵀ` in turn, all entries being real numbers by the precondition. -/
theorem algebraic : Cert.algebraic_KernelIdeal_ReferenceIdeal := by
  intro m ρ m' ρ' hpre hagree
  refine ⟨fun c => Cert.KernelIdeal.Gen.W4 m ρ c (Proc.devRef .tc Cert.KernelIdeal.main_v3),
    Cert.KernelIdeal.GenRun.run_main m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hB, hC⟩ := Cert.FiniteInputs.reals_of_pre _ _ _ _ (hpre c)
  rw [Cert.ReferenceIdeal.Read.val_main_v2_eq, (hagree c).1, (hagree c).2.1, (hagree c).2.2.1, (hagree c).2.2.2]
  funext i
  obtain ⟨b, s, o, rfl⟩ : ∃ (b : Fin 4) (s : Fin 4096) (o : Fin 1024), i = ix3 b s o := ⟨i 0, i 1, i 2, eq_ix3 i⟩
  refine (Cert.ReferenceIdeal.Chain.result_at _ _ _ _ b s o).trans ?_
  refine Eq.trans ?_ (Cert.KernelIdeal.Arrays.result_at m ρ c b s o).symm
  exact (Cert.FusedChain.ereal_law _ _ _ _ (fun i => hx (ix3 b s i)) (fun h i => hB (ix2 h i)) (fun h k => hA (ix2 h k))
    (fun k => hC (ix2 o k))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
